-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 120
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x64, .f32⟩
  | .hbm, ⟨56, _⟩ => ⟨S1650000x1, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000, .i32⟩
  | .hbm, ⟨66, _⟩ => ⟨S1650000, .i32⟩
  | .hbm, ⟨67, _⟩ => ⟨S1650000, .i32⟩
  | .hbm, ⟨68, _⟩ => ⟨S_, .f32⟩
  | .hbm, ⟨69, _⟩ => ⟨S1650000, .f32⟩
  | .hbm, ⟨70, _⟩ => ⟨S_, .f32⟩
  | .hbm, ⟨71, _⟩ => ⟨S50000, .f32⟩
  | .hbm, ⟨72, _⟩ => ⟨S1650000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .i1⟩
  | .hbm, ⟨77, _⟩ => ⟨S50000, .f32⟩
  | .hbm, ⟨78, _⟩ => ⟨S_, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S1650000, .i32⟩
  | .hbm, ⟨84, _⟩ => ⟨S1650000, .i1⟩
  | .hbm, ⟨85, _⟩ => ⟨S_, .i32⟩
  | .hbm, ⟨86, _⟩ => ⟨S1650000, .i32⟩
  | .hbm, ⟨87, _⟩ => ⟨S1650000, .i32⟩
  | .hbm, ⟨88, _⟩ => ⟨S1650000, .i32⟩
  | .hbm, ⟨89, _⟩ => ⟨S1650000x1, .i32⟩
  | .hbm, ⟨90, _⟩ => ⟨S1650000, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000, .f32⟩
  | .hbm, ⟨100, _⟩ => ⟨S1650000, .f32⟩
  | .hbm, ⟨101, _⟩ => ⟨S50000x64, .f32⟩
  | .hbm, ⟨102, _⟩ => ⟨S_, .i32⟩
  | .hbm, ⟨103, _⟩ => ⟨S1650000, .i32⟩
  | .hbm, ⟨104, _⟩ => ⟨S1650000, .i1⟩
  | .hbm, ⟨105, _⟩ => ⟨S_, .i32⟩
  | .hbm, ⟨106, _⟩ => ⟨S1650000, .i32⟩
  | .hbm, ⟨107, _⟩ => ⟨S1650000, .i32⟩
  | .hbm, ⟨108, _⟩ => ⟨S1650000, .i32⟩
  | .hbm, ⟨109, _⟩ => ⟨S1650000x1, .i32⟩
  | .hbm, ⟨110, _⟩ => ⟨S1650000x64, .f32⟩
  | .hbm, ⟨111, _⟩ => ⟨S1650000x1, .f32⟩
  | .hbm, ⟨112, _⟩ => ⟨S1650000x64, .f32⟩
  | .hbm, ⟨113, _⟩ => ⟨S1650000x64, .f32⟩
  | .hbm, ⟨114, _⟩ => ⟨S_, .f32⟩
  | .hbm, ⟨115, _⟩ => ⟨S50000x64, .f32⟩
  | .hbm, ⟨116, _⟩ => ⟨S1650000x1, .i32⟩
  | .hbm, ⟨117, _⟩ => ⟨S50000x64, .f32⟩
  | .hbm, ⟨118, _⟩ => ⟨S1x64, .f32⟩
  | .hbm, ⟨119, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x64, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x64, .f32⟩
  | .hbm, ⟨56, _⟩ => ⟨S1650000x1, .f32⟩
  | .hbm, ⟨57, _⟩ => ⟨S1650000x64, .f32⟩
  | .hbm, ⟨58, _⟩ => ⟨S1650000x64, .f32⟩
  | .hbm, ⟨59, _⟩ => ⟨S_, .f32⟩
  | .hbm, ⟨60, _⟩ => ⟨S50000x64, .f32⟩
  | .hbm, ⟨61, _⟩ => ⟨S1650000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000, .i32⟩
  | .hbm, ⟨70, _⟩ => ⟨S1650000, .i32⟩
  | .hbm, ⟨71, _⟩ => ⟨S1650000, .i32⟩
  | .hbm, ⟨72, _⟩ => ⟨S_, .f32⟩
  | .hbm, ⟨73, _⟩ => ⟨S1650000, .f32⟩
  | .hbm, ⟨74, _⟩ => ⟨S_, .f32⟩
  | .hbm, ⟨75, _⟩ => ⟨S50000, .f32⟩
  | .hbm, ⟨76, _⟩ => ⟨S1650000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000, .f32⟩
  | .hbm, ⟨104, _⟩ => ⟨S1650000, .f32⟩
  | .hbm, ⟨105, _⟩ => ⟨S50000x64, .f32⟩
  | .hbm, ⟨106, _⟩ => ⟨S_, .i32⟩
  | .hbm, ⟨107, _⟩ => ⟨S1650000, .i32⟩
  | .hbm, ⟨108, _⟩ => ⟨S1650000, .i1⟩
  | .hbm, ⟨109, _⟩ => ⟨S_, .i32⟩
  | .hbm, ⟨110, _⟩ => ⟨S1650000, .i32⟩
  | .hbm, ⟨111, _⟩ => ⟨S1650000, .i32⟩
  | .hbm, ⟨112, _⟩ => ⟨S1650000, .i32⟩
  | .hbm, ⟨113, _⟩ => ⟨S1650000x1, .i32⟩
  | .hbm, ⟨114, _⟩ => ⟨S1650000x64, .f32⟩
  | .hbm, ⟨115, _⟩ => ⟨S1650000x1, .f32⟩
  | .hbm, ⟨116, _⟩ => ⟨S1650000x64, .f32⟩
  | .hbm, ⟨117, _⟩ => ⟨S1650000x64, .f32⟩
  | .hbm, ⟨118, _⟩ => ⟨S_, .f32⟩
  | .hbm, ⟨119, _⟩ => ⟨S50000x64, .f32⟩
  | .hbm, ⟨120, _⟩ => ⟨S1650000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostStretches.lean ====
/-
  The host operations between the kernel regions, read against the reference's stages.

  Outside its four regions the kernel's program runs the same host operations, in the same order, as the reference: the
  source and target lists of the edges with the self loops appended, the degrees by a scatter-add of ones, their inverse
  square roots (zero where the degree is zero), the edge weights as products of two gathers, and, per layer, the gather of
  the projected features along the sources, the scaling by the edge weights and the scatter-add into the targets. So each
  buffer a stretch writes holds the reference's stage of that buffer, given that the buffers the stretch reads hold the
  reference's stages of theirs. The lemmas below say this for the four stretches, for any float values and from any
  contents `W`; the stages are the reference's own (its read-at-an-index module), and no operation is opened.
-/
import proofs.«174948_j10170482556975_1_alg».proof.Proof.Gen.KernelIdeal.Frame
import proofs.«174948_j10170482556975_1_alg».proof.Proof.RefRead
import Idealize.ShloMosaic.Lib.StableHlo.Run

noncomputable section

namespace Cert.KernelIdeal.HostStretches

open Idealize.ShloMosaic Idealize.ShloMosaic.TcCoe Idealize.SL.Sem Idealize.ShloMosaic.StableHlo
open Cert.KernelIdeal Cert.KernelIdeal.Gen

/-- Each operation's result at its own buffer, or what was there at another buffer: the rewriting form, for the buffers
    a concatenation reads (they sit inside its operand list). -/
macro "results_rw" : tactic =>
  `(tactic| repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)))

variable {F : FTy → Type} [FloatOps F]

/-! ## Before the first region: the edge lists, the degrees and the edge weights -/

/-- The contents after the three stretches that precede the first region. -/
abbrev beforeFirst (W : Valuation τ sig (Elt F)) : Valuation τ sig (Elt F) :=
  after hostOps0_2 (after hostOps0_1 (after hostOps0 W))

/-- The sources without the self loops. -/
theorem first_v1 (W : Valuation τ sig (Elt F)) :
    beforeFirst W (Proc.devRef .tc main_v1) = Cert.ReferenceIdeal.ReadP.val_main_v1 (F := F) (W (Proc.devRef .tc main_arg1)) := by
  after_results_simp
  rfl

/-- The targets without the self loops. -/
theorem first_v3 (W : Valuation τ sig (Elt F)) :
    beforeFirst W (Proc.devRef .tc main_v3) = Cert.ReferenceIdeal.ReadP.val_main_v3 (F := F) (W (Proc.devRef .tc main_arg1)) := by
  after_results_simp
  rfl

/-- The sources with the self loops. -/
theorem first_v5 (W : Valuation τ sig (Elt F)) :
    beforeFirst W (Proc.devRef .tc main_v5) = Cert.ReferenceIdeal.ReadP.val_main_v5 (F := F) (W (Proc.devRef .tc main_arg1)) := by
  after_results_simp
  results_rw
  rfl

/-- The targets with the self loops. -/
theorem first_v6 (W : Valuation τ sig (Elt F)) :
    beforeFirst W (Proc.devRef .tc main_v6) = Cert.ReferenceIdeal.ReadP.val_main_v6 (F := F) (W (Proc.devRef .tc main_arg1)) := by
  after_results_simp
  results_rw
  rfl

/-- The edge weights. -/
theorem first_v29 (W : Valuation τ sig (Elt F)) :
    beforeFirst W (Proc.devRef .tc main_v29) = Cert.ReferenceIdeal.ReadP.val_main_v29 (F := F) (W (Proc.devRef .tc main_arg1)) := by
  after_results_simp
  results_rw
  rfl

/-- The three stretches write no argument. -/
theorem first_arg0 (W : Valuation τ sig (Elt F)) : beforeFirst W (Proc.devRef .tc main_arg0) = W (Proc.devRef .tc main_arg0) := by
  after_results_simp
theorem first_arg2 (W : Valuation τ sig (Elt F)) : beforeFirst W (Proc.devRef .tc main_arg2) = W (Proc.devRef .tc main_arg2) := by
  after_results_simp
theorem first_arg3 (W : Valuation τ sig (Elt F)) : beforeFirst W (Proc.devRef .tc main_arg3) = W (Proc.devRef .tc main_arg3) := by
  after_results_simp
theorem first_arg4 (W : Valuation τ sig (Elt F)) : beforeFirst W (Proc.devRef .tc main_arg4) = W (Proc.devRef .tc main_arg4) := by
  after_results_simp
theorem first_arg5 (W : Valuation τ sig (Elt F)) : beforeFirst W (Proc.devRef .tc main_arg5) = W (Proc.devRef .tc main_arg5) := by
  after_results_simp

/-! ## Between the first and the second region: the first layer's aggregation -/

/-- The aggregated messages of the first layer, when the stretch finds the projected features, the edge lists and the
    edge weights at the reference's stages. -/
theorem second_v43 (W : Valuation τ sig (Elt F)) (x0 x1 x2)
    (h30 : W (Proc.devRef .tc main_v30) = Cert.ReferenceIdeal.ReadP.val_main_v30 (F := F) x0 x2)
    (h5 : W (Proc.devRef .tc main_v5) = Cert.ReferenceIdeal.ReadP.val_main_v5 (F := F) x1)
    (h6 : W (Proc.devRef .tc main_v6) = Cert.ReferenceIdeal.ReadP.val_main_v6 (F := F) x1)
    (h29 : W (Proc.devRef .tc main_v29) = Cert.ReferenceIdeal.ReadP.val_main_v29 (F := F) x1) :
    after hostOps1 W (Proc.devRef .tc main_v43) = Cert.ReferenceIdeal.ReadP.val_main_v43 (F := F) x0 x1 x2 := by
  after_results_simp
  rw [h30, h5, h6, h29]
  rfl

/-- The first bias as one row. -/
theorem second_v44 (W : Valuation τ sig (Elt F)) :
    after hostOps1 W (Proc.devRef .tc main_v44) = shapeCast S1x64 (W (Proc.devRef .tc main_arg3)) shapeCasts_S64_S1x64 := by
  after_results_simp
  rfl

theorem second_v1 (W : Valuation τ sig (Elt F)) : after hostOps1 W (Proc.devRef .tc main_v1) = W (Proc.devRef .tc main_v1) := by
  after_results_simp
theorem second_v3 (W : Valuation τ sig (Elt F)) : after hostOps1 W (Proc.devRef .tc main_v3) = W (Proc.devRef .tc main_v3) := by
  after_results_simp
theorem second_arg4 (W : Valuation τ sig (Elt F)) : after hostOps1 W (Proc.devRef .tc main_arg4) = W (Proc.devRef .tc main_arg4) := by
  after_results_simp
theorem second_arg5 (W : Valuation τ sig (Elt F)) : after hostOps1 W (Proc.devRef .tc main_arg5) = W (Proc.devRef .tc main_arg5) := by
  after_results_simp

/-! ## Between the second and the third region: the edge lists, the degrees and the edge weights again -/

/-- The contents after the three stretches between the second and the third region. -/
abbrev beforeThird (W : Valuation τ sig (Elt F)) : Valuation τ sig (Elt F) :=
  after hostOps2_2 (after hostOps2_1 (after hostOps2 W))

/-- The sources with the self loops, recomputed. -/
theorem third_v47 (W : Valuation τ sig (Elt F)) (x1)
    (h1 : W (Proc.devRef .tc main_v1) = Cert.ReferenceIdeal.ReadP.val_main_v1 (F := F) x1) :
    beforeThird W (Proc.devRef .tc main_v47) = Cert.ReferenceIdeal.ReadP.val_main_v49 (F := F) x1 := by
  after_results_simp
  results_rw
  rw [h1]
  rfl

/-- The targets with the self loops, recomputed. -/
theorem third_v48 (W : Valuation τ sig (Elt F)) (x1)
    (h3 : W (Proc.devRef .tc main_v3) = Cert.ReferenceIdeal.ReadP.val_main_v3 (F := F) x1) :
    beforeThird W (Proc.devRef .tc main_v48) = Cert.ReferenceIdeal.ReadP.val_main_v50 (F := F) x1 := by
  after_results_simp
  results_rw
  rw [h3]
  rfl

/-- The edge weights, recomputed. -/
theorem third_v71 (W : Valuation τ sig (Elt F)) (x1)
    (h1 : W (Proc.devRef .tc main_v1) = Cert.ReferenceIdeal.ReadP.val_main_v1 (F := F) x1)
    (h3 : W (Proc.devRef .tc main_v3) = Cert.ReferenceIdeal.ReadP.val_main_v3 (F := F) x1) :
    beforeThird W (Proc.devRef .tc main_v71) = Cert.ReferenceIdeal.ReadP.val_main_v73 (F := F) x1 := by
  after_results_simp
  results_rw
  rw [h1, h3]
  rfl

theorem third_v45 (W : Valuation τ sig (Elt F)) : beforeThird W (Proc.devRef .tc main_v45) = W (Proc.devRef .tc main_v45) := by
  after_results_simp
theorem third_arg4 (W : Valuation τ sig (Elt F)) : beforeThird W (Proc.devRef .tc main_arg4) = W (Proc.devRef .tc main_arg4) := by
  after_results_simp
theorem third_arg5 (W : Valuation τ sig (Elt F)) : beforeThird W (Proc.devRef .tc main_arg5) = W (Proc.devRef .tc main_arg5) := by
  after_results_simp

/-! ## Between the third and the fourth region: the second layer's aggregation -/

/-- The aggregated messages of the second layer, when the stretch finds the projected features, the edge lists and the
    edge weights at the reference's stages. -/
theorem fourth_v85 (W : Valuation τ sig (Elt F)) (x0 x1 x2 x3 x4)
    (h72 : W (Proc.devRef .tc main_v72) = Cert.ReferenceIdeal.ReadP.val_main_v74 (F := F) x0 x1 x2 x3 x4)
    (h47 : W (Proc.devRef .tc main_v47) = Cert.ReferenceIdeal.ReadP.val_main_v49 (F := F) x1)
    (h48 : W (Proc.devRef .tc main_v48) = Cert.ReferenceIdeal.ReadP.val_main_v50 (F := F) x1)
    (h71 : W (Proc.devRef .tc main_v71) = Cert.ReferenceIdeal.ReadP.val_main_v73 (F := F) x1) :
    after hostOps3 W (Proc.devRef .tc main_v85) = Cert.ReferenceIdeal.ReadP.val_main_v87 (F := F) x0 x1 x2 x3 x4 := by
  after_results_simp
  rw [h72, h47, h48, h71]
  rfl

/-- The second bias as one row. -/
theorem fourth_v86 (W : Valuation τ sig (Elt F)) :
    after hostOps3 W (Proc.devRef .tc main_v86) = shapeCast S1x64 (W (Proc.devRef .tc main_arg5)) shapeCasts_S64_S1x64 := by
  after_results_simp
  rfl

end Cert.KernelIdeal.HostStretches

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.FirstProduct.lean ====
/-
  The first dense product of the network, x · W1, as the first kernel region leaves it.

  The region walks the 50000 rows of x in ten blocks of 5000; at each point the matrix unit multiplies the block
  [5000, 128] by the whole weight matrix [128, 64] into a zero accumulator (both operands narrowed on the way in, which
  changes nothing at the ideal values) and the block [5000, 64] is written back to rows 5000 t … 5000 t + 4999 of the
  result. So entry (p, q) of the result is the sum over k < 128 of x[p, k] · W1[k, q]: the blocks are restrictions of
  that one function, and together they cover the array.
-/
import proofs.«174948_j10170482556975_1_alg».proof.Proof.Gen.KernelIdeal.Frame
import proofs.«174948_j10170482556975_1_alg».proof.Proof.LibMatmul
import Idealize.ShloMosaic.Lib.Pipeline.Value
import Idealize.ShloMosaic.Lib.ValueIdx

noncomputable section

namespace Cert.KernelIdeal.FirstProduct

open Idealize.ShloMosaic Idealize.ShloMosaic.TcCoe Idealize.SL.Sem Idealize.ShloMosaic.ValueIdx
open Idealize.ShloMosaic.Pipeline (Dat)
open Cert.KernelIdeal Cert.KernelIdeal.Gen

/-- Row `i 0`, column `k` of the left factor. -/
abbrev lix (i : S50000x64.Idx) (k : Fin 128) : S50000x128.Idx := fun a => match a with
  | ⟨0, _⟩ => ⟨(i 0).val, (i 0).isLt⟩
  | ⟨1, _⟩ => ⟨k.val, k.isLt⟩
/-- Row `k`, column `i 1` of the right factor. -/
abbrev rix (i : S50000x64.Idx) (k : Fin 128) : S128x64.Idx := fun a => match a with
  | ⟨0, _⟩ => ⟨k.val, k.isLt⟩
  | ⟨1, _⟩ => ⟨(i 1).val, (i 1).isLt⟩

/-- The product of the node features with the first weight matrix, entry by entry. -/
def product (X : S50000x128.Idx → EReal) (W : S128x64.Idx → EReal) : S50000x64.Idx → EReal :=
  fun i => ∑ k : Fin 128, X (lix i k) * W (rix i k)

theorem hz : (![0, 0] : Fin 2 → Nat) = fun _ => 0 := funext fun a => by fin_cases a <;> rfl

/-- One block's product at entry (r, q): the sum over k of block[r, k] · W[k, q]. -/
theorem block_apply (x0 : Vec Ideal S5000x128 .f32) (x1 : Vec Ideal S128x64 .f32) (r : Fin 5000) (q : Fin 64) :
    k0_pay1 (F := Ideal) x0 x1 (ix2 r q) = ∑ k : Fin 128, (x0 (ix2 r k) : EReal) * (x1 (ix2 k q) : EReal) := by
  unfold k0_pay1
  exact Cert.Lib.Matmul.matmul_zero_apply (A := 5000) (K := 128) (C := 64) none _ _ r q

/-- A block of rows of the product: when the block's rows are rows `e` of the left factor `X` and the right factor is `W`
    whole, the matrix unit's result on the block is the product read along `e`. -/
theorem block_eq (x0 : Vec Ideal S5000x128 .f32) (x1 : Vec Ideal S128x64 .f32)
    (X : S50000x128.Idx → EReal) (W : S128x64.Idx → EReal) (e : S5000x64.Idx → S50000x64.Idx)
    (h0 : ∀ (r : Fin 5000) (q : Fin 64) (k : Fin 128), x0 (ix2 r k) = X (lix (e (ix2 r q)) k))
    (h1 : ∀ (r : Fin 5000) (q : Fin 64) (k : Fin 128), x1 (ix2 k q) = W (rix (e (ix2 r q)) k)) :
    k0_pay1 (F := Ideal) x0 x1 = fun j => product X W (e j) := by
  funext j
  obtain ⟨r, q, rfl⟩ : ∃ (r : Fin 5000) (q : Fin 64), j = ix2 r q := ⟨j 0, j 1, eq_ix2 j⟩
  rw [block_apply]
  unfold product
  exact Finset.sum_congr rfl fun k _ => by rw [h0 r q k, h1 r q k]

/-- The printed index maps over the grid: the left factor's block and the result's block move down the rows with the
    point, the right factor stays. -/
theorem idx_facts : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  show k0_pay1 (F := Ideal) (iblk0 V c 0 t) (iblk0 V c 1 t)
    = fun j => product (V c main_arg0) (V c main_arg2) (((cfg0.win 2).blk t).view.emb j)
  refine block_eq (iblk0 V c 0 t) (iblk0 V c 1 t) (V c main_arg0) (V c main_arg2) (fun j => ((cfg0.win 2).blk t).view.emb j) ?_ ?_
  · intro r q k
    show V c main_arg0 (((cfg0.win 0).blk t).view.emb (ix2 r k)) = V c main_arg0 (lix (((cfg0.win 2).blk t).view.emb (ix2 r q)) k)
    refine congrArg (V c main_arg0) ?_
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  · intro r q k
    show V c main_arg2 (((cfg0.win 1).blk t).view.emb (ix2 k q)) = V c main_arg2 (rix (((cfg0.win 2).blk t).view.emb (ix2 r q)) k)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the result is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The ten row blocks cover the result: row `p` lies in the block of point `p / 5000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The region's result array, after its ten points, is the product of the two arrays it found. -/
theorem result (c : Dev nD) : (dat0 V c).arrAt 2 cfg0.N = product (V c main_arg0) (V c main_arg2) :=
  (dat0 V c).arrAt_eq_of_cover 2 _ (fun t _ => flushed_eq V c t) cover

end Cert.KernelIdeal.FirstProduct

end
-- ==== Proof.FirstActivation.lean ====
/-
  The first layer's epilogue, relu(agg + b1), as the second kernel region leaves it.

  The region walks the 50000 rows of the aggregated messages in ten blocks of 5000; at each point it adds the bias row
  [1, 64], broadcast down the block's rows, takes the maximum with zero and writes the block back to rows 5000 t …
  5000 t + 4999 of the result. So entry (p, q) of the result is max(agg[p, q] + b1[0, q], 0).
-/
import proofs.«174948_j10170482556975_1_alg».proof.Proof.Gen.KernelIdeal.Frame
import Idealize.ShloMosaic.Lib.Pipeline.Value
import Idealize.ShloMosaic.Lib.ValueIdx

noncomputable section

namespace Cert.KernelIdeal.FirstActivation

open Idealize.ShloMosaic Idealize.ShloMosaic.TcCoe Idealize.SL.Sem Idealize.ShloMosaic.ValueIdx
open Idealize.ShloMosaic.Pipeline (Dat)
open Cert.KernelIdeal Cert.KernelIdeal.Gen

/-- The bias row's entry under column `i 1`. -/
abbrev bix (i : S50000x64.Idx) : S1x64.Idx := fun a => match a with
  | ⟨0, _⟩ => ⟨0, Nat.one_pos⟩
  | ⟨1, _⟩ => ⟨(i 1).val, (i 1).isLt⟩

/-- The rectified sum of an array and a bias row, entry by entry. -/
def activation (A : S50000x64.Idx → EReal) (b : S1x64.Idx → EReal) : S50000x64.Idx → EReal :=
  fun i => max (A i + b (bix i)) (FloatOps.ofBits (F := Ideal) .f32 0x00000000#32)

theorem hz : (![0, 0] : Fin 2 → Nat) = fun _ => 0 := funext fun a => by fin_cases a <;> rfl

/-- One block's result at entry (r, q): max(block[r, q] + row[0, q], 0). -/
theorem block_apply (x0 : Vec Ideal S5000x64 .f32) (x1 : Vec Ideal S1x64 .f32) (r : Fin 5000) (q : Fin 64) :
    k1_pay1 (F := Ideal) x0 x1 (ix2 r q)
      = max ((x0 (ix2 r q) : EReal) + (x1 (ix2 (0 : Fin 1) q) : EReal)) (FloatOps.ofBits (F := Ideal) .f32 0x00000000#32) := by
  unfold k1_pay1
  simp only [shapeCast_self]
  show max ((x0 (ix2 r q) : EReal) + broadcastTo S5000x64 x1 broadcasts_S1x64_S5000x64 (ix2 r q)) _ = _
  rw [broadcastTo_apply x1 broadcasts_S1x64_S5000x64 (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])]
  rfl

/-- A block of rows of the result: when the block's rows are rows `e` of the array `A` and the bias row is `b` whole, the
    body's result on the block is the rectified sum read along `e`. -/
theorem block_eq (x0 : Vec Ideal S5000x64 .f32) (x1 : Vec Ideal S1x64 .f32)
    (A : S50000x64.Idx → EReal) (b : S1x64.Idx → EReal) (e : S5000x64.Idx → S50000x64.Idx)
    (h0 : ∀ (r : Fin 5000) (q : Fin 64), x0 (ix2 r q) = A (e (ix2 r q)))
    (h1 : ∀ (r : Fin 5000) (q : Fin 64), x1 (ix2 (0 : Fin 1) q) = b (bix (e (ix2 r q)))) :
    k1_pay1 (F := Ideal) x0 x1 = fun j => activation A b (e j) := by
  funext j
  obtain ⟨r, q, rfl⟩ : ∃ (r : Fin 5000) (q : Fin 64), j = ix2 r q := ⟨j 0, j 1, eq_ix2 j⟩
  rw [block_apply]
  unfold activation
  rw [h0 r q, h1 r q]

/-- The printed index maps over the grid: the array's block and the result's block move down the rows with the point, the
    bias row stays. -/
theorem idx_facts : ∀ t : Fin cfg1.N, win1_0.index t (0 : Fin 2) = t.val
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the rectified sum of the two arrays as the region finds them. -/
theorem flushed_eq (c : Dev nD) (t : Fin cfg1.N) :
    (dat1 V c).flushed 2 t = ((cfg1.win 2).blk t).view.read (Elt Ideal) (activation (V c main_v43) (V c main_v44)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  show k1_pay1 (F := Ideal) (iblk1 V c 0 t) (iblk1 V c 1 t)
    = fun j => activation (V c main_v43) (V c main_v44) (((cfg1.win 2).blk t).view.emb j)
  refine block_eq (iblk1 V c 0 t) (iblk1 V c 1 t) (V c main_v43) (V c main_v44) (fun j => ((cfg1.win 2).blk t).view.emb j) ?_ ?_
  · intro r q
    show V c main_v43 (((cfg1.win 0).blk t).view.emb (ix2 r q)) = V c main_v43 (((cfg1.win 2).blk t).view.emb (ix2 r q))
    refine congrArg (V c main_v43) ?_
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 64 + 1 * q.val = win1_2.index t (1 : Fin 2) * 64 + 1 * q.val; omega
  · intro r q
    show V c main_v44 (((cfg1.win 1).blk t).view.emb (ix2 (0 : Fin 1) q)) = V c main_v44 (bix (((cfg1.win 2).blk t).view.emb (ix2 r q)))
    refine congrArg (V c main_v44) ?_
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

/-- An index of the result is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The ten row blocks cover the result: row `p` lies in the block of point `p / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The region's result array, after its ten points, is the rectified sum of the two arrays it found. -/
theorem result (c : Dev nD) : (dat1 V c).arrAt 2 cfg1.N = activation (V c main_v43) (V c main_v44) :=
  (dat1 V c).arrAt_eq_of_cover 2 _ (fun t _ => flushed_eq V c t) cover

end Cert.KernelIdeal.FirstActivation

end
-- ==== Proof.SecondProduct.lean ====
/-
  The second dense product of the network, h · W2, as the third kernel region leaves it.

  The region walks the 50000 rows of the hidden features h in ten blocks of 5000; at each point the matrix unit multiplies
  the block [5000, 64] by the whole weight matrix [64, 64] into a zero accumulator (the block first cast to its own shape,
  both operands narrowed on the way in: no change at the ideal values) and the block is written back to rows 5000 t …
  5000 t + 4999 of the result. So entry (p, q) of the result is the sum over k < 64 of h[p, k] · W2[k, q].
-/
import proofs.«174948_j10170482556975_1_alg».proof.Proof.Gen.KernelIdeal.Frame
import proofs.«174948_j10170482556975_1_alg».proof.Proof.LibMatmul
import Idealize.ShloMosaic.Lib.Pipeline.Value
import Idealize.ShloMosaic.Lib.ValueIdx

noncomputable section

namespace Cert.KernelIdeal.SecondProduct

open Idealize.ShloMosaic Idealize.ShloMosaic.TcCoe Idealize.SL.Sem Idealize.ShloMosaic.ValueIdx
open Idealize.ShloMosaic.Pipeline (Dat)
open Cert.KernelIdeal Cert.KernelIdeal.Gen

/-- Row `i 0`, column `k` of the left factor. -/
abbrev lix (i : S50000x64.Idx) (k : Fin 64) : S50000x64.Idx := fun a => match a with
  | ⟨0, _⟩ => ⟨(i 0).val, (i 0).isLt⟩
  | ⟨1, _⟩ => ⟨k.val, k.isLt⟩
/-- Row `k`, column `i 1` of the right factor. -/
abbrev rix (i : S50000x64.Idx) (k : Fin 64) : S64x64.Idx := fun a => match a with
  | ⟨0, _⟩ => ⟨k.val, k.isLt⟩
  | ⟨1, _⟩ => ⟨(i 1).val, (i 1).isLt⟩

/-- The product of the hidden features with the second weight matrix, entry by entry. -/
def product (H : S50000x64.Idx → EReal) (W : S64x64.Idx → EReal) : S50000x64.Idx → EReal :=
  fun i => ∑ k : Fin 64, H (lix i k) * W (rix i k)

theorem hz : (![0, 0] : Fin 2 → Nat) = fun _ => 0 := funext fun a => by fin_cases a <;> rfl

/-- One block's product at entry (r, q): the sum over k of block[r, k] · W[k, q]. -/
theorem block_apply (x0 : Vec Ideal S5000x64 .f32) (x1 : Vec Ideal S64x64 .f32) (r : Fin 5000) (q : Fin 64) :
    k2_pay1 (F := Ideal) x0 x1 (ix2 r q) = ∑ k : Fin 64, (x0 (ix2 r k) : EReal) * (x1 (ix2 k q) : EReal) := by
  unfold k2_pay1
  simp only [shapeCast_self]
  exact Cert.Lib.Matmul.matmul_zero_apply (A := 5000) (K := 64) (C := 64) none _ _ r q

/-- A block of rows of the product: when the block's rows are rows `e` of the left factor `H` and the right factor is `W`
    whole, the matrix unit's result on the block is the product read along `e`. -/
theorem block_eq (x0 : Vec Ideal S5000x64 .f32) (x1 : Vec Ideal S64x64 .f32)
    (H : S50000x64.Idx → EReal) (W : S64x64.Idx → EReal) (e : S5000x64.Idx → S50000x64.Idx)
    (h0 : ∀ (r : Fin 5000) (q : Fin 64) (k : Fin 64), x0 (ix2 r k) = H (lix (e (ix2 r q)) k))
    (h1 : ∀ (r : Fin 5000) (q : Fin 64) (k : Fin 64), x1 (ix2 k q) = W (rix (e (ix2 r q)) k)) :
    k2_pay1 (F := Ideal) x0 x1 = fun j => product H W (e j) := by
  funext j
  obtain ⟨r, q, rfl⟩ : ∃ (r : Fin 5000) (q : Fin 64), j = ix2 r q := ⟨j 0, j 1, eq_ix2 j⟩
  rw [block_apply]
  unfold product
  exact Finset.sum_congr rfl fun k _ => by rw [h0 r q k, h1 r q k]

/-- The printed index maps over the grid: the left factor's block and the result's block move down the rows with the
    point, the right factor stays. -/
theorem idx_facts : ∀ t : Fin cfg2.N, win2_0.index t (0 : Fin 2) = t.val
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the product of the two arrays as the region finds them. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  show k2_pay1 (F := Ideal) (iblk2 V c 0 t) (iblk2 V c 1 t)
    = fun j => product (V c main_v45) (V c main_arg4) (((cfg2.win 2).blk t).view.emb j)
  refine block_eq (iblk2 V c 0 t) (iblk2 V c 1 t) (V c main_v45) (V c main_arg4) (fun j => ((cfg2.win 2).blk t).view.emb j) ?_ ?_
  · intro r q k
    show V c main_v45 (((cfg2.win 0).blk t).view.emb (ix2 r k)) = V c main_v45 (lix (((cfg2.win 2).blk t).view.emb (ix2 r q)) k)
    refine congrArg (V c main_v45) ?_
    funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 64 + 1 * k.val = k.val; omega
  · intro r q k
    show V c main_arg4 (((cfg2.win 1).blk t).view.emb (ix2 k q)) = V c main_arg4 (rix (((cfg2.win 2).blk t).view.emb (ix2 r q)) k)
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega

/-- An index of the result is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v72).slice (win2_2.rect t)).set ↔ _
  rw [View.set_slice_whole, Rect.mem_set_unit]
  exact Iff.rfl

/-- The ten row blocks cover the result: row `p` lies in the block of point `p / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The region's result array, after its ten points, is the product of the two arrays it found. -/
theorem result (c : Dev nD) : (dat2 V c).arrAt 2 cfg2.N = product (V c main_v45) (V c main_arg4) :=
  (dat2 V c).arrAt_eq_of_cover 2 _ (fun t _ => flushed_eq V c t) cover

end Cert.KernelIdeal.SecondProduct

end
-- ==== Proof.SecondBias.lean ====
/-
  The second layer's epilogue, agg + b2, as the fourth kernel region leaves it.

  The region walks the 50000 rows of the aggregated messages in ten blocks of 5000; at each point it adds the bias row
  [1, 64], broadcast down the block's rows, and writes the block back to rows 5000 t … 5000 t + 4999 of the result. So
  entry (p, q) of the result is agg[p, q] + b2[0, q].
-/
import proofs.«174948_j10170482556975_1_alg».proof.Proof.Gen.KernelIdeal.Frame
import Idealize.ShloMosaic.Lib.Pipeline.Value
import Idealize.ShloMosaic.Lib.ValueIdx

noncomputable section

namespace Cert.KernelIdeal.SecondBias

open Idealize.ShloMosaic Idealize.ShloMosaic.TcCoe Idealize.SL.Sem Idealize.ShloMosaic.ValueIdx
open Idealize.ShloMosaic.Pipeline (Dat)
open Cert.KernelIdeal Cert.KernelIdeal.Gen

/-- The bias row's entry under column `i 1`. -/
abbrev bix (i : S50000x64.Idx) : S1x64.Idx := fun a => match a with
  | ⟨0, _⟩ => ⟨0, Nat.one_pos⟩
  | ⟨1, _⟩ => ⟨(i 1).val, (i 1).isLt⟩

/-- The sum of an array and a bias row, entry by entry. -/
def biased (A : S50000x64.Idx → EReal) (b : S1x64.Idx → EReal) : S50000x64.Idx → EReal :=
  fun i => A i + b (bix i)

theorem hz : (![0, 0] : Fin 2 → Nat) = fun _ => 0 := funext fun a => by fin_cases a <;> rfl

/-- One block's result at entry (r, q): block[r, q] + row[0, q]. -/
theorem block_apply (x0 : Vec Ideal S5000x64 .f32) (x1 : Vec Ideal S1x64 .f32) (r : Fin 5000) (q : Fin 64) :
    k3_pay1 (F := Ideal) x0 x1 (ix2 r q) = (x0 (ix2 r q) : EReal) + (x1 (ix2 (0 : Fin 1) q) : EReal) := by
  unfold k3_pay1
  simp only [shapeCast_self]
  show (x0 (ix2 r q) : EReal) + broadcastTo S5000x64 x1 broadcasts_S1x64_S5000x64 (ix2 r q) = _
  rw [broadcastTo_apply x1 broadcasts_S1x64_S5000x64 (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])]

/-- A block of rows of the result: when the block's rows are rows `e` of the array `A` and the bias row is `b` whole, the
    body's result on the block is the sum read along `e`. -/
theorem block_eq (x0 : Vec Ideal S5000x64 .f32) (x1 : Vec Ideal S1x64 .f32)
    (A : S50000x64.Idx → EReal) (b : S1x64.Idx → EReal) (e : S5000x64.Idx → S50000x64.Idx)
    (h0 : ∀ (r : Fin 5000) (q : Fin 64), x0 (ix2 r q) = A (e (ix2 r q)))
    (h1 : ∀ (r : Fin 5000) (q : Fin 64), x1 (ix2 (0 : Fin 1) q) = b (bix (e (ix2 r q)))) :
    k3_pay1 (F := Ideal) x0 x1 = fun j => biased A b (e j) := by
  funext j
  obtain ⟨r, q, rfl⟩ : ∃ (r : Fin 5000) (q : Fin 64), j = ix2 r q := ⟨j 0, j 1, eq_ix2 j⟩
  rw [block_apply]
  unfold biased
  rw [h0 r q, h1 r q]

/-- The printed index maps over the grid: the array's block and the result's block move down the rows with the point, the
    bias row stays. -/
theorem idx_facts : ∀ t : Fin cfg3.N, win3_0.index t (0 : Fin 2) = t.val
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the sum of the two arrays as the region finds them. -/
theorem flushed_eq (c : Dev nD) (t : Fin cfg3.N) :
    (dat3 V c).flushed 2 t = ((cfg3.win 2).blk t).view.read (Elt Ideal) (biased (V c main_v85) (V c main_v86)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  show k3_pay1 (F := Ideal) (iblk3 V c 0 t) (iblk3 V c 1 t)
    = fun j => biased (V c main_v85) (V c main_v86) (((cfg3.win 2).blk t).view.emb j)
  refine block_eq (iblk3 V c 0 t) (iblk3 V c 1 t) (V c main_v85) (V c main_v86) (fun j => ((cfg3.win 2).blk t).view.emb j) ?_ ?_
  · intro r q
    show V c main_v85 (((cfg3.win 0).blk t).view.emb (ix2 r q)) = V c main_v85 (((cfg3.win 2).blk t).view.emb (ix2 r q))
    refine congrArg (V c main_v85) ?_
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 64 + 1 * q.val = win3_2.index t (1 : Fin 2) * 64 + 1 * q.val; omega
  · intro r q
    show V c main_v86 (((cfg3.win 1).blk t).view.emb (ix2 (0 : Fin 1) q)) = V c main_v86 (bix (((cfg3.win 2).blk t).view.emb (ix2 r q)))
    refine congrArg (V c main_v86) ?_
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega

/-- An index of the result is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v87).slice (win3_2.rect t)).set ↔ _
  rw [View.set_slice_whole, Rect.mem_set_unit]
  exact Iff.rfl

/-- The ten row blocks cover the result: row `p` lies in the block of point `p / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- The region's result array, after its ten points, is the sum of the two arrays it found. -/
theorem result (c : Dev nD) : (dat3 V c).arrAt 2 cfg3.N = biased (V c main_v85) (V c main_v86) :=
  (dat3 V c).arrAt_eq_of_cover 2 _ (fun t _ => flushed_eq V c t) cover

end Cert.KernelIdeal.SecondBias

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.Bridge.lean ====
/-
  The four regions' results are the reference's stages.

  At the ideal values the first region's product is the reference's dot_general of the same operands (both are the sum
  over k of x[p, k] · W1[k, q]); the second region's max(agg + b1[0, ·], 0) is the reference's relu of agg plus the bias
  broadcast down the rows (the kernel's program makes the bias row by a reshape, the reference by a broadcast: both rows
  hold the bias vector); the third region's product is the reference's second dot_general; the fourth region's
  agg + b2[0, ·] is the reference's last sum.
-/
import proofs.«174948_j10170482556975_1_alg».proof.Proof.RefRead
import proofs.«174948_j10170482556975_1_alg».proof.Proof.FirstProduct
import proofs.«174948_j10170482556975_1_alg».proof.Proof.FirstActivation
import proofs.«174948_j10170482556975_1_alg».proof.Proof.SecondProduct
import proofs.«174948_j10170482556975_1_alg».proof.Proof.SecondBias
import proofs.«174948_j10170482556975_1_alg».proof.Proof.LibLayout

noncomputable section

namespace Cert.KernelIdeal.Bridge

open Idealize.ShloMosaic Idealize.ShloMosaic.TcCoe Idealize.SL.Sem Idealize.ShloMosaic.ValueIdx
open Cert.KernelIdeal Cert.KernelIdeal.Gen

/-- A bias vector reshaped to one row, read under column `i 1`, is the vector's entry `i 1`. -/
theorem row_apply (x : S64.Idx → EReal) (i : S50000x64.Idx) :
    shapeCast S1x64 x shapeCasts_S64_S1x64 (FirstActivation.bix i)
      = x (fun a => match a with | ⟨0, _⟩ => ⟨(i 1).val, (i 1).isLt⟩) := by
  have e1 : FirstActivation.bix i = ix2 (0 : Fin 1) (⟨(i 1).val, (i 1).isLt⟩ : Fin 64) :=
    funext fun a => match a with | ⟨0, _⟩ => rfl | ⟨1, _⟩ => rfl
  rw [e1]
  exact (Cert.Lib.Layout.rowCast_apply x shapeCasts_S64_S1x64 0 _).trans
    (congrArg x (funext fun a => match a with | ⟨0, _⟩ => rfl))

/-- The first region's product is the reference's first dot_general. -/
theorem first_product (x0 : S50000x128.Idx → EReal) (x2 : S128x64.Idx → EReal) :
    FirstProduct.product x0 x2 = Cert.ReferenceIdeal.ReadP.val_main_v30 (F := Ideal) x0 x2 := by
  funext i
  rw [Cert.ReferenceIdeal.ReadP.val_main_v30_apply]
  rfl

/-- The second region's rectified sum, of the reference's aggregated messages and the first bias as a row, is the
    reference's hidden features. -/
theorem first_activation (x0 : S50000x128.Idx → EReal) (x1) (x2 : S128x64.Idx → EReal) (x3 : S64.Idx → EReal) :
    FirstActivation.activation (Cert.ReferenceIdeal.ReadP.val_main_v43 (F := Ideal) x0 x1 x2) (shapeCast S1x64 x3 shapeCasts_S64_S1x64)
      = Cert.ReferenceIdeal.ReadP.val_main_v47 (F := Ideal) x0 x1 x2 x3 := by
  funext i
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  unfold FirstActivation.activation
  rw [row_apply]
  rfl

/-- The third region's product is the reference's second dot_general. -/
theorem second_product (x0 : S50000x128.Idx → EReal) (x1) (x2 : S128x64.Idx → EReal) (x3 : S64.Idx → EReal)
    (x4 : S64x64.Idx → EReal) :
    SecondProduct.product (Cert.ReferenceIdeal.ReadP.val_main_v47 (F := Ideal) x0 x1 x2 x3) x4 = Cert.ReferenceIdeal.ReadP.val_main_v74 (F := Ideal) x0 x1 x2 x3 x4 := by
  funext i
  rw [Cert.ReferenceIdeal.ReadP.val_main_v74_apply]
  rfl

/-- The fourth region's sum, of the reference's aggregated messages and the second bias as a row, is the reference's
    result. -/
theorem second_bias (x0 : S50000x128.Idx → EReal) (x1) (x2 : S128x64.Idx → EReal) (x3 : S64.Idx → EReal)
    (x4 : S64x64.Idx → EReal) (x5 : S64.Idx → EReal) :
    SecondBias.biased (Cert.ReferenceIdeal.ReadP.val_main_v87 (F := Ideal) x0 x1 x2 x3 x4) (shapeCast S1x64 x5 shapeCasts_S64_S1x64)
      = Cert.ReferenceIdeal.ReadP.val_main_v90 (F := Ideal) x0 x1 x2 x3 x4 x5 := by
  funext i
  rw [Cert.ReferenceIdeal.ReadP.val_main_v90_apply, Cert.ReferenceIdeal.ReadP.val_main_v89_apply, Cert.ReferenceIdeal.ReadP.val_main_v88_apply]
  unfold SecondBias.biased
  show _ + shapeCast S1x64 x5 shapeCasts_S64_S1x64 (FirstActivation.bix i) = _
  rw [row_apply]
  rfl

end Cert.KernelIdeal.Bridge

end
-- ==== Proof.Result.lean ====
/-
  The kernel's result array is the reference's result term of the same arguments.

  The contents of the TensorCore's buffers are followed through @main's twelve segments: at each boundary the buffers the
  later segments read hold the reference's stages of the launch arguments. A host stretch takes stages to stages (the
  stretch lemmas); a region leaves its result array at its whole-array function of the arrays it found (the four region
  modules), which is the reference's stage (the bridge), and leaves every other buffer as it was; no segment writes an
  argument. At the last boundary the result buffer holds the reference's last stage.
-/
import proofs.«174948_j10170482556975_1_alg».proof.Proof.Gen.KernelIdeal.Frame
import proofs.«174948_j10170482556975_1_alg».proof.Proof.HostStretches
import proofs.«174948_j10170482556975_1_alg».proof.Proof.Bridge

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.HostStretches
open Cert.ReferenceIdeal.ReadP

variable (m : (ℓ : Loc nD τ sig) → Buf (Elt Ideal) ℓ) (ρ : Dev nD → PrngReg) (c : Dev nD)

/-- Launch argument 0 on core `c`. -/
abbrev a0 := m ((c : Thread nD τ).loc main_arg0)
/-- Launch argument 1 on core `c`. -/
abbrev a1 := m ((c : Thread nD τ).loc main_arg1)
/-- Launch argument 2 on core `c`. -/
abbrev a2 := m ((c : Thread nD τ).loc main_arg2)
/-- Launch argument 3 on core `c`. -/
abbrev a3 := m ((c : Thread nD τ).loc main_arg3)
/-- Launch argument 4 on core `c`. -/
abbrev a4 := m ((c : Thread nD τ).loc main_arg4)
/-- Launch argument 5 on core `c`. -/
abbrev a5 := m ((c : Thread nD τ).loc main_arg5)

/-! ## At the first region's entry -/

theorem at3_v1 : W3 m ρ c (Proc.devRef .tc main_v1) = val_main_v1 (F := Ideal) (a1 m c) := first_v1 (W0 m ρ c)
theorem at3_v3 : W3 m ρ c (Proc.devRef .tc main_v3) = val_main_v3 (F := Ideal) (a1 m c) := first_v3 (W0 m ρ c)
theorem at3_v5 : W3 m ρ c (Proc.devRef .tc main_v5) = val_main_v5 (F := Ideal) (a1 m c) := first_v5 (W0 m ρ c)
theorem at3_v6 : W3 m ρ c (Proc.devRef .tc main_v6) = val_main_v6 (F := Ideal) (a1 m c) := first_v6 (W0 m ρ c)
theorem at3_v29 : W3 m ρ c (Proc.devRef .tc main_v29) = val_main_v29 (F := Ideal) (a1 m c) := first_v29 (W0 m ρ c)
theorem at3_arg0 : W3 m ρ c (Proc.devRef .tc main_arg0) = (a0 m c) := first_arg0 (W0 m ρ c)
theorem at3_arg2 : W3 m ρ c (Proc.devRef .tc main_arg2) = (a2 m c) := first_arg2 (W0 m ρ c)
theorem at3_arg3 : W3 m ρ c (Proc.devRef .tc main_arg3) = (a3 m c) := first_arg3 (W0 m ρ c)
theorem at3_arg4 : W3 m ρ c (Proc.devRef .tc main_arg4) = (a4 m c) := first_arg4 (W0 m ρ c)
theorem at3_arg5 : W3 m ρ c (Proc.devRef .tc main_arg5) = (a5 m c) := first_arg5 (W0 m ρ c)

/-! ## At the first region's exit -/

/-- The projected features of the first layer. -/
theorem at4_v30 : W4 m ρ c (Proc.devRef .tc main_v30) = val_main_v30 (F := Ideal) (a0 m c) (a2 m c) := by
  refine (W4_arr m ρ c 2).trans ?_
  refine (FirstProduct.result (V3 m ρ) c).trans ?_
  show FirstProduct.product (W3 m ρ c (Proc.devRef .tc main_arg0)) (W3 m ρ c (Proc.devRef .tc main_arg2)) = _
  rw [at3_arg0, at3_arg2]
  exact Bridge.first_product _ _

theorem at4_v1 : W4 m ρ c (Proc.devRef .tc main_v1) = val_main_v1 (F := Ideal) (a1 m c) := (W4_of_ne m ρ c main_v1 (by decide)).trans (at3_v1 m ρ c)
theorem at4_v3 : W4 m ρ c (Proc.devRef .tc main_v3) = val_main_v3 (F := Ideal) (a1 m c) := (W4_of_ne m ρ c main_v3 (by decide)).trans (at3_v3 m ρ c)
theorem at4_v5 : W4 m ρ c (Proc.devRef .tc main_v5) = val_main_v5 (F := Ideal) (a1 m c) := (W4_of_ne m ρ c main_v5 (by decide)).trans (at3_v5 m ρ c)
theorem at4_v6 : W4 m ρ c (Proc.devRef .tc main_v6) = val_main_v6 (F := Ideal) (a1 m c) := (W4_of_ne m ρ c main_v6 (by decide)).trans (at3_v6 m ρ c)
theorem at4_v29 : W4 m ρ c (Proc.devRef .tc main_v29) = val_main_v29 (F := Ideal) (a1 m c) := (W4_of_ne m ρ c main_v29 (by decide)).trans (at3_v29 m ρ c)
theorem at4_arg3 : W4 m ρ c (Proc.devRef .tc main_arg3) = (a3 m c) := (W4_of_ne m ρ c main_arg3 (by decide)).trans (at3_arg3 m ρ c)
theorem at4_arg4 : W4 m ρ c (Proc.devRef .tc main_arg4) = (a4 m c) := (W4_of_ne m ρ c main_arg4 (by decide)).trans (at3_arg4 m ρ c)
theorem at4_arg5 : W4 m ρ c (Proc.devRef .tc main_arg5) = (a5 m c) := (W4_of_ne m ρ c main_arg5 (by decide)).trans (at3_arg5 m ρ c)

/-! ## At the second region's entry -/

/-- The aggregated messages of the first layer. -/
theorem at5_v43 : W5 m ρ c (Proc.devRef .tc main_v43) = val_main_v43 (F := Ideal) (a0 m c) (a1 m c) (a2 m c) :=
  second_v43 (W4 m ρ c) (a0 m c) (a1 m c) (a2 m c) (at4_v30 m ρ c) (at4_v5 m ρ c) (at4_v6 m ρ c) (at4_v29 m ρ c)
/-- The first bias as one row. -/
theorem at5_v44 : W5 m ρ c (Proc.devRef .tc main_v44) = shapeCast S1x64 (a3 m c) shapeCasts_S64_S1x64 :=
  (second_v44 (W4 m ρ c)).trans (congrArg (fun x => shapeCast S1x64 x shapeCasts_S64_S1x64) (at4_arg3 m ρ c))
theorem at5_v1 : W5 m ρ c (Proc.devRef .tc main_v1) = val_main_v1 (F := Ideal) (a1 m c) := (second_v1 (W4 m ρ c)).trans (at4_v1 m ρ c)
theorem at5_v3 : W5 m ρ c (Proc.devRef .tc main_v3) = val_main_v3 (F := Ideal) (a1 m c) := (second_v3 (W4 m ρ c)).trans (at4_v3 m ρ c)
theorem at5_arg4 : W5 m ρ c (Proc.devRef .tc main_arg4) = (a4 m c) := (second_arg4 (W4 m ρ c)).trans (at4_arg4 m ρ c)
theorem at5_arg5 : W5 m ρ c (Proc.devRef .tc main_arg5) = (a5 m c) := (second_arg5 (W4 m ρ c)).trans (at4_arg5 m ρ c)

/-! ## At the second region's exit -/

/-- The hidden features. -/
theorem at6_v45 : W6 m ρ c (Proc.devRef .tc main_v45) = val_main_v47 (F := Ideal) (a0 m c) (a1 m c) (a2 m c) (a3 m c) := by
  refine (W6_arr m ρ c 2).trans ?_
  refine (FirstActivation.result (V5 m ρ) c).trans ?_
  show FirstActivation.activation (W5 m ρ c (Proc.devRef .tc main_v43)) (W5 m ρ c (Proc.devRef .tc main_v44)) = _
  rw [at5_v43, at5_v44]
  exact Bridge.first_activation _ _ _ _

theorem at6_v1 : W6 m ρ c (Proc.devRef .tc main_v1) = val_main_v1 (F := Ideal) (a1 m c) := (W6_of_ne m ρ c main_v1 (by decide)).trans (at5_v1 m ρ c)
theorem at6_v3 : W6 m ρ c (Proc.devRef .tc main_v3) = val_main_v3 (F := Ideal) (a1 m c) := (W6_of_ne m ρ c main_v3 (by decide)).trans (at5_v3 m ρ c)
theorem at6_arg4 : W6 m ρ c (Proc.devRef .tc main_arg4) = (a4 m c) := (W6_of_ne m ρ c main_arg4 (by decide)).trans (at5_arg4 m ρ c)
theorem at6_arg5 : W6 m ρ c (Proc.devRef .tc main_arg5) = (a5 m c) := (W6_of_ne m ρ c main_arg5 (by decide)).trans (at5_arg5 m ρ c)

/-! ## At the third region's entry -/

theorem at9_v47 : W9 m ρ c (Proc.devRef .tc main_v47) = val_main_v49 (F := Ideal) (a1 m c) := third_v47 (W6 m ρ c) (a1 m c) (at6_v1 m ρ c)
theorem at9_v48 : W9 m ρ c (Proc.devRef .tc main_v48) = val_main_v50 (F := Ideal) (a1 m c) := third_v48 (W6 m ρ c) (a1 m c) (at6_v3 m ρ c)
theorem at9_v71 : W9 m ρ c (Proc.devRef .tc main_v71) = val_main_v73 (F := Ideal) (a1 m c) := third_v71 (W6 m ρ c) (a1 m c) (at6_v1 m ρ c) (at6_v3 m ρ c)
theorem at9_v45 : W9 m ρ c (Proc.devRef .tc main_v45) = val_main_v47 (F := Ideal) (a0 m c) (a1 m c) (a2 m c) (a3 m c) := (third_v45 (W6 m ρ c)).trans (at6_v45 m ρ c)
theorem at9_arg4 : W9 m ρ c (Proc.devRef .tc main_arg4) = (a4 m c) := (third_arg4 (W6 m ρ c)).trans (at6_arg4 m ρ c)
theorem at9_arg5 : W9 m ρ c (Proc.devRef .tc main_arg5) = (a5 m c) := (third_arg5 (W6 m ρ c)).trans (at6_arg5 m ρ c)

/-! ## At the third region's exit -/

/-- The projected features of the second layer. -/
theorem at10_v72 : W10 m ρ c (Proc.devRef .tc main_v72) = val_main_v74 (F := Ideal) (a0 m c) (a1 m c) (a2 m c) (a3 m c) (a4 m c) := by
  refine (W10_arr m ρ c 2).trans ?_
  refine (SecondProduct.result (V9 m ρ) c).trans ?_
  show SecondProduct.product (W9 m ρ c (Proc.devRef .tc main_v45)) (W9 m ρ c (Proc.devRef .tc main_arg4)) = _
  rw [at9_v45, at9_arg4]
  exact Bridge.second_product _ _ _ _ _

theorem at10_v47 : W10 m ρ c (Proc.devRef .tc main_v47) = val_main_v49 (F := Ideal) (a1 m c) := (W10_of_ne m ρ c main_v47 (by decide)).trans (at9_v47 m ρ c)
theorem at10_v48 : W10 m ρ c (Proc.devRef .tc main_v48) = val_main_v50 (F := Ideal) (a1 m c) := (W10_of_ne m ρ c main_v48 (by decide)).trans (at9_v48 m ρ c)
theorem at10_v71 : W10 m ρ c (Proc.devRef .tc main_v71) = val_main_v73 (F := Ideal) (a1 m c) := (W10_of_ne m ρ c main_v71 (by decide)).trans (at9_v71 m ρ c)
theorem at10_arg5 : W10 m ρ c (Proc.devRef .tc main_arg5) = (a5 m c) := (W10_of_ne m ρ c main_arg5 (by decide)).trans (at9_arg5 m ρ c)

/-! ## At the fourth region's entry -/

/-- The aggregated messages of the second layer. -/
theorem at11_v85 : W11 m ρ c (Proc.devRef .tc main_v85) = val_main_v87 (F := Ideal) (a0 m c) (a1 m c) (a2 m c) (a3 m c) (a4 m c) :=
  fourth_v85 (W10 m ρ c) (a0 m c) (a1 m c) (a2 m c) (a3 m c) (a4 m c) (at10_v72 m ρ c) (at10_v47 m ρ c) (at10_v48 m ρ c) (at10_v71 m ρ c)
/-- The second bias as one row. -/
theorem at11_v86 : W11 m ρ c (Proc.devRef .tc main_v86) = shapeCast S1x64 (a5 m c) shapeCasts_S64_S1x64 :=
  (fourth_v86 (W10 m ρ c)).trans (congrArg (fun x => shapeCast S1x64 x shapeCasts_S64_S1x64) (at10_arg5 m ρ c))

/-! ## At the return -/

/-- The result buffer ends at the reference's result stage of the launch arguments. -/
theorem result : W12 m ρ c (Proc.devRef .tc main_v87) = val_main_v90 (F := Ideal) (a0 m c) (a1 m c) (a2 m c) (a3 m c) (a4 m c) (a5 m c) := by
  refine (W12_arr m ρ c 2).trans ?_
  refine (SecondBias.result (V11 m ρ) c).trans ?_
  show SecondBias.biased (W11 m ρ c (Proc.devRef .tc main_v85)) (W11 m ρ c (Proc.devRef .tc main_v86)) = _
  rw [at11_v85, at11_v86]
  exact Bridge.second_bias _ _ _ _ _ _

end Cert.KernelIdeal.Result

end
-- ==== Proof.lean ====
/-
  A two-layer graph convolution, relu(Â·(x·W1) + b1) then Â·(h·W2) + b2 with Â the degree-normalized adjacency with self
  loops, computed by four kernel regions (the two dense products and the two bias epilogues, each over ten blocks of 5000
  rows) among host gathers and scatter-adds, against the same network written in plain array operations.

  At the ideal values the two programs compute the same function of the arguments. The host operations are the same in
  both programs, so they are never opened: each is carried as the reference's own stage. The four regions are read as
  whole-array functions (Proof/FirstProduct.lean, FirstActivation.lean, SecondProduct.lean, SecondBias.lean: each block a
  point writes back is a restriction of one function of the arrays the region found, and the ten blocks cover the result),
  and those functions are the reference's dot_general, bias-and-relu, dot_general and bias stages (Proof/Bridge.lean): a
  matrix-unit product into a zero accumulator and the host's dot_general are both the sum over k of the products, a
  change of float format is the identity, and the bias row made by a reshape holds the same numbers as the one made by a
  broadcast. Proof/HostStretches.lean takes stages to stages through each host stretch, Proof/Result.lean follows the
  buffers through @main's twelve segments to the result. No law of the extended reals is used, so the precondition
  (finite inputs) is never opened.

  The frames of the two kernel programs are the generated ones; the run of the kernel's program with its result buffer
  read is Proof/KernelRun.lean; the reference's run and its stages are Proof/RefRun.lean and Proof/RefRead.lean.
  The idealization rewrote nothing, so `preserves` is trivial.
-/
import proofs.«174948_j10170482556975_1_alg».proof.Defs
import proofs.«174948_j10170482556975_1_alg».proof.Proof.Gen.Kernel
import proofs.«174948_j10170482556975_1_alg».proof.Proof.Gen.Kernel.Skeleton
import proofs.«174948_j10170482556975_1_alg».proof.Proof.Gen.Kernel.Launch
import proofs.«174948_j10170482556975_1_alg».proof.Proof.Gen.Kernel.Points
import proofs.«174948_j10170482556975_1_alg».proof.Proof.Gen.Kernel.Frame
import proofs.«174948_j10170482556975_1_alg».proof.Proof.Gen.KernelIdeal
import proofs.«174948_j10170482556975_1_alg».proof.Proof.Gen.KernelIdeal.Skeleton
import proofs.«174948_j10170482556975_1_alg».proof.Proof.Gen.KernelIdeal.Launch
import proofs.«174948_j10170482556975_1_alg».proof.Proof.Gen.KernelIdeal.Points
import proofs.«174948_j10170482556975_1_alg».proof.Proof.Gen.KernelIdeal.Frame
import proofs.«174948_j10170482556975_1_alg».proof.Proof.Gen.ReferenceIdeal
import proofs.«174948_j10170482556975_1_alg».proof.Proof.Gen.Pre_finite_inputs
import proofs.«174948_j10170482556975_1_alg».proof.Proof.RefRun
import proofs.«174948_j10170482556975_1_alg».proof.Proof.RefRead
import proofs.«174948_j10170482556975_1_alg».proof.Proof.KernelRun
import proofs.«174948_j10170482556975_1_alg».proof.Proof.Result
import Idealize.ShloMosaic.Adequacy
import Idealize.ShloMosaic.Init

noncomputable section

namespace Cert.Proof

open Idealize.ShloMosaic Idealize.ShloMosaic.TcCoe Idealize.SL.Sem

/-- The kernel's program as printed runs and leaves its arguments. -/
theorem frame_kernel : Cert.frame_Kernel := fun m ρ _ => Cert.Kernel.Gen.frame m ρ

/-- The idealized kernel's program runs and leaves its arguments. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the reference's result stage of those
    arguments in their result buffers: the kernel's program by following its buffers through its segments, the
    reference by its own run. -/
theorem algebraic : Cert.algebraic_KernelIdeal_ReferenceIdeal := by
  intro m ρ m' ρ' _ hagree
  refine ⟨fun c => Cert.ReferenceIdeal.ReadP.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
